-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel

variable [Facts]

def fn {F : FTy → Type} [FloatOps F] (main_arg0 : FVec F S16x2048x256 .f32) (main_arg1 : FVec F S16x2048x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  main_v8
-- ==== Kernel.lean ====
abbrev S16x2048x256 : Shape := ⟨3, ![16, 2048, 256]⟩
abbrev S16x1x2048 : Shape := ⟨3, ![16, 1, 2048]⟩
abbrev S1x512x256 : Shape := ⟨3, ![1, 512, 256]⟩
abbrev S1x2048x256 : Shape := ⟨3, ![1, 2048, 256]⟩
abbrev S1x1x2048 : Shape := ⟨3, ![1, 1, 2048]⟩
abbrev S1x1x512 : Shape := ⟨3, ![1, 1, 512]⟩
abbrev S512x256 : Shape := ⟨2, ![512, 256]⟩
abbrev S2048x256 : Shape := ⟨2, ![2048, 256]⟩
abbrev S512x2048 : Shape := ⟨2, ![512, 2048]⟩
abbrev S1x2048 : Shape := ⟨2, ![1, 2048]⟩
abbrev S2048 : Shape := ⟨1, ![2048]⟩
abbrev S512 : Shape := ⟨1, ![512]⟩
abbrev S1x512 : Shape := ⟨2, ![1, 512]⟩
abbrev S16x2048 : Shape := ⟨2, ![16, 2048]⟩
abbrev S16x4096 : Shape := ⟨2, ![16, 4096]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x1x2048, .f32⟩
  | .hbm, ⟨3, _⟩ => ⟨S16x1x2048, .f32⟩
  | .hbm, ⟨4, _⟩ => ⟨S16x2048, .f32⟩
  | .hbm, ⟨5, _⟩ => ⟨S16x2048, .f32⟩
  | .hbm, ⟨6, _⟩ => ⟨S16x4096, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x1x2048, .f32⟩
  | .local _ .vmem, ⟨5, _⟩ => ⟨S1x1x2048, .f32⟩
  | .local _ .vmem, ⟨6, _⟩ => ⟨S1x1x512, .f32⟩
  | .local _ .vmem, ⟨7, _⟩ => ⟨S1x1x512, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S1x1x2048_S1x2048 : S1x1x2048.ShapeCasts S1x2048
  reduces_S512x2048_S2048 : S512x2048.Reduces [0] S2048
  shapeCasts_S2048_S1x2048 : S2048.ShapeCasts S1x2048
  shapeCasts_S1x2048_S1x1x2048 : S1x2048.ShapeCasts S1x1x2048
  reduces_S512x2048_S512 : S512x2048.Reduces [1] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S16x1x2048_S16x2048 : S16x1x2048.ShapeCasts S16x2048
  concatenates_S16x2048_S16x2048_S16x4096_d1 : Shape.Concatenates [S16x2048, S16x2048] S16x4096 1
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x2048x256.size a
  hwx0_0 : ∀ i : grid0.Coords, EltTy.bits .f32 = 32 ∨ (Rect.block (s := S16x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x256.size a
  hwx0_1 : ∀ i : grid0.Coords, EltTy.bits .f32 = 32 ∨ (Rect.block (s := S16x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x2048.size a
  hwx0_2 : ∀ i : grid0.Coords, EltTy.bits .f32 = 32 ∨ (Rect.block (s := S16x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S16x1x2048.size a
  hwx0_3 : ∀ i : grid0.Coords, EltTy.bits .f32 = 32 ∨ (Rect.block (s := S16x1x2048) S1x1x512.size (cc0_transform_3 i) (hinb0_3 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S16x2048x2048 : Shape := ⟨3, ![16, 2048, 2048]⟩
abbrev S_ : Shape := ⟨0, ![]⟩
abbrev S16x2048 : Shape := ⟨2, ![16, 2048]⟩
abbrev S16x4096 : Shape := ⟨2, ![16, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x2048, .f32⟩
  | .hbm, ⟨3, _⟩ => ⟨S_, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x4096, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S16x2048x2048_S16x2048_d1 : S16x2048x2048.ReducesTo [1] S16x2048
  h_S_ : 0 < S_.numel
  reducesTo_S16x2048x2048_S16x2048_d2 : S16x2048x2048.ReducesTo [2] S16x2048
  concatenates_S16x2048_S16x2048_S16x4096_d1 : Shape.Concatenates [S16x2048, S16x2048] S16x4096 1
  dot_S16x2048x256_S16x2048x256_S16x2048x2048_2_2_1_1_0_0_wf : DotDims.WF S16x2048x256 S16x2048x256 S16x2048x2048 [2] [2] [1] [1] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf

class Facts : Prop extends Facts₀ where

variable [Facts]
-- ==== Proof.Pieces.lean ====
/-
  What each of the body's two cases leaves in the two output blocks, as values of the blocks the point is given.

  At the first point of a batch the body first stores the zero block into the row-marginal block and then adds the tile's
  column sums to what it reads back, so the block ends at (tile's update of the zero block); at the other points it adds
  them to what the point before left.  In both cases the column-marginal block is written whole from the tile alone.
  The statements hold for every instance of the float operations: they only follow which store lands last on a block that
  every store covers whole, and that a load of a whole buffer reads its contents.
-/
import proofs.«145752_j70970039599490_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem zero_offsets : (![0, 0, 0] : Fin 3 → Nat) = fun _ => 0 := funext fun a => by fin_cases a <;> rfl

/-- First point of a batch, row-marginal block: the tile's update of the zero block. -/
theorem rows_first (c : Dev nD) (i : grid0.Coords) (a2 : Memref sig .tc .vmem S1x512x256 .f32) (h2 : a2.IsWhole)
    (a3 : Memref sig .tc .vmem S1x2048x256 .f32) (h3 : a3.IsWhole) (a4 : Memref sig .tc .vmem S1x1x2048 .f32) (h4 : a4.IsWhole)
    (a5 : Memref sig .tc .vmem S1x1x512 .f32) (h5 : a5.IsWhole) (hc : cond0_0 i)
    (xt : Vec F S1x512x256 .f32) (ys : Vec F S1x2048x256 .f32) :
    out0_A_2 c i a2 h2 a3 h3 a4 h4 a5 h5 hc xt ys = k0_pay3 xt ys k0_pay1 := by
  unfold out0_A_2
  rw [View.read_writes_eq_canon _ _ _ (cover0_A_2 c i a2 h2 a3 h3 a4 h4 a5 h5 hc xt ys)]
  unfold kernelRun0_A
  dsimp only
  sl_unfold_words
  rw [View.canon_cons_unit_zero (S := S1x1x2048) zero_offsets, View.readCov_unit_zero (S := S1x1x2048) _ zero_offsets]
  simp only [View.readAt_eq_ld, h2.read_unread, h3.read_unread, View.ld_unit_zero (S := S1x512x256) zero_offsets,
    View.ld_unit_zero (S := S1x2048x256) zero_offsets]

/-- First point of a batch, column-marginal block: the tile's row sums. -/
theorem cols_first (c : Dev nD) (i : grid0.Coords) (a2 : Memref sig .tc .vmem S1x512x256 .f32) (h2 : a2.IsWhole)
    (a3 : Memref sig .tc .vmem S1x2048x256 .f32) (h3 : a3.IsWhole) (a4 : Memref sig .tc .vmem S1x1x2048 .f32) (h4 : a4.IsWhole)
    (a5 : Memref sig .tc .vmem S1x1x512 .f32) (h5 : a5.IsWhole) (hc : cond0_0 i)
    (xt : Vec F S1x512x256 .f32) (ys : Vec F S1x2048x256 .f32) :
    out0_A_3 c i a2 h2 a3 h3 a4 h4 a5 h5 hc xt ys = k0_pay4 xt ys := by
  unfold out0_A_3
  rw [View.read_writes_eq_canon _ _ _ (cover0_A_3 c i a2 h2 a3 h3 a4 h4 a5 h5 hc xt ys)]
  unfold kernelRun0_A
  dsimp only
  sl_unfold_words
  rw [View.canon_unit_zero (S := S1x1x512) zero_offsets]
  simp only [View.readAt_eq_ld, h2.read_unread, h3.read_unread, View.ld_unit_zero (S := S1x512x256) zero_offsets,
    View.ld_unit_zero (S := S1x2048x256) zero_offsets]

/-- A later point of a batch, row-marginal block: the tile's update of what the point before left. -/
theorem rows_later (c : Dev nD) (i : grid0.Coords) (a2 : Memref sig .tc .vmem S1x512x256 .f32) (h2 : a2.IsWhole)
    (a3 : Memref sig .tc .vmem S1x2048x256 .f32) (h3 : a3.IsWhole) (a4 : Memref sig .tc .vmem S1x1x2048 .f32) (h4 : a4.IsWhole)
    (a5 : Memref sig .tc .vmem S1x1x512 .f32) (h5 : a5.IsWhole) (hc : ¬cond0_0 i)
    (xt : Vec F S1x512x256 .f32) (ys : Vec F S1x2048x256 .f32) (held : Vec F S1x1x2048 .f32) :
    out0_B_2 c i a2 h2 a3 h3 a4 h4 a5 h5 hc xt ys held = k0_pay3 xt ys held := by
  unfold out0_B_2
  rw [View.read_writes_eq_canon _ _ _ (cover0_B_2 c i a2 h2 a3 h3 a4 h4 a5 h5 hc xt ys held)]
  unfold kernelRun0_B
  dsimp only
  sl_unfold_words
  rw [View.canon_unit_zero (S := S1x1x2048) zero_offsets]
  simp only [View.readAt_eq_ld, h2.read_unread, h3.read_unread, h4.read_unread, View.ld_unit_zero (S := S1x512x256) zero_offsets,
    View.ld_unit_zero (S := S1x2048x256) zero_offsets, View.ld_unit_zero (S := S1x1x2048) zero_offsets]

/-- A later point of a batch, column-marginal block: the tile's row sums. -/
theorem cols_later (c : Dev nD) (i : grid0.Coords) (a2 : Memref sig .tc .vmem S1x512x256 .f32) (h2 : a2.IsWhole)
    (a3 : Memref sig .tc .vmem S1x2048x256 .f32) (h3 : a3.IsWhole) (a4 : Memref sig .tc .vmem S1x1x2048 .f32) (h4 : a4.IsWhole)
    (a5 : Memref sig .tc .vmem S1x1x512 .f32) (h5 : a5.IsWhole) (hc : ¬cond0_0 i)
    (xt : Vec F S1x512x256 .f32) (ys : Vec F S1x2048x256 .f32) (held : Vec F S1x1x2048 .f32) :
    out0_B_3 c i a2 h2 a3 h3 a4 h4 a5 h5 hc xt ys held = k0_pay4 xt ys := by
  unfold out0_B_3
  rw [View.read_writes_eq_canon _ _ _ (cover0_B_3 c i a2 h2 a3 h3 a4 h4 a5 h5 hc xt ys held)]
  unfold kernelRun0_B
  dsimp only
  sl_unfold_words
  rw [View.canon_unit_zero (S := S1x1x512) zero_offsets]
  simp only [View.readAt_eq_ld, h2.read_unread, h3.read_unread, View.ld_unit_zero (S := S1x512x256) zero_offsets,
    View.ld_unit_zero (S := S1x2048x256) zero_offsets]

end Cert.KernelIdeal.Pieces

end
-- ==== Proof.TileValue.lean ====
/-
  What one grid point computes, entry by entry, over the extended reals.

  At a point the body holds a tile of `x`, 512 rows by 256 features, and the whole 2048-row slab of `y` of the same batch.
  It forms the tile's scores  s[r, m] = ∑ d, x[r, d] · y[m, d]  (the contraction started from the zero word, which is 0;
  the narrowing of the factors to sixteen bits is the identity on the extended reals), adds the scores' column sums
  ∑ r, s[r, m] to what the row-marginal block held, and writes the scores' row sums ∑ m, s[r, m] as the tile's 512
  entries of the column marginal.
-/
import proofs.«145752_j70970039599490_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.TileValue

open Idealize.ShloMosaic Idealize.ShloMosaic.ValueIdx Cert.KernelIdeal Cert.KernelIdeal.Gen

/-! ## Where the contraction reads its two factors -/

theorem lhs_row (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhs_feature (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem rhs_row (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhs_feature (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-! ## The tile's scores, and the two sums over them -/

/-- The score of the tile's row `r` against `y`'s row `m`: the inner product over the 256 features. -/
theorem score_apply (xt : Vec Ideal S1x512x256 .f32) (ys : Vec Ideal S1x2048x256 .f32) (r : Fin 512) (m : Fin 2048) :
    k0_pay2 (F := Ideal) xt ys (ix2 r m) = ∑ d : Fin 256, xt (ix3 0 r d) * ys (ix3 0 m d) := by
  unfold k0_pay2
  refine (Ideal.matmul_constant_zero_apply dot_S512x256_S2048x256_S512x2048_1_1_0_0_n_n none _ _ (ix2 r m)).trans ?_
  rw [← Equiv.sum_comp (contrEquiv1 dot_S512x256_S2048x256_S512x2048_1_1_0_0_n_n 256 rfl rfl).symm]
  refine Finset.sum_congr rfl fun d _ => ?_
  have hd := contrEquiv1_symm_val dot_S512x256_S2048x256_S512x2048_1_1_0_0_n_n 256 rfl rfl d
  have el : (Fin.cons ⟨0, Nat.one_pos⟩ (dot_S512x256_S2048x256_S512x2048_1_1_0_0_n_n.lhsIdx (ix2 r m) ((contrEquiv1 dot_S512x256_S2048x256_S512x2048_1_1_0_0_n_n 256 rfl rfl).symm d)) : S1x512x256.Idx) = ix3 0 r d :=
    funext fun a => Fin.ext (by
      match a with
      | ⟨0, _⟩ => rfl
      | ⟨1, _⟩ => exact lhs_row (ix2 r m) ((contrEquiv1 dot_S512x256_S2048x256_S512x2048_1_1_0_0_n_n 256 rfl rfl).symm d)
      | ⟨2, _⟩ => exact (lhs_feature (ix2 r m) ((contrEquiv1 dot_S512x256_S2048x256_S512x2048_1_1_0_0_n_n 256 rfl rfl).symm d)).trans hd)
  have er : (Fin.cons ⟨0, Nat.one_pos⟩ (dot_S512x256_S2048x256_S512x2048_1_1_0_0_n_n.rhsIdx (ix2 r m) ((contrEquiv1 dot_S512x256_S2048x256_S512x2048_1_1_0_0_n_n 256 rfl rfl).symm d)) : S1x2048x256.Idx) = ix3 0 m d :=
    funext fun a => Fin.ext (by
      match a with
      | ⟨0, _⟩ => rfl
      | ⟨1, _⟩ => exact rhs_row (ix2 r m) ((contrEquiv1 dot_S512x256_S2048x256_S512x2048_1_1_0_0_n_n 256 rfl rfl).symm d)
      | ⟨2, _⟩ => exact (rhs_feature (ix2 r m) ((contrEquiv1 dot_S512x256_S2048x256_S512x2048_1_1_0_0_n_n 256 rfl rfl).symm d)).trans hd)
  refine congrArg₂ (· * ·) ?_ ?_
  · exact (shapeCast_dropUnit_apply ![512, 256] xt _ _).trans (congrArg xt el)
  · exact (shapeCast_dropUnit_apply ![2048, 256] ys _ _).trans (congrArg ys er)

/-- The reset's block is zero everywhere. -/
theorem reset_apply (i : S1x1x2048.Idx) : k0_pay1 (F := Ideal) i = 0 := by
  show Ideal.ofBits .f32 0x00000000#32 = 0
  exact Ideal.ofBits_zero_f32

/-- The row-marginal block after the point: what it held, plus the scores' sum down column `m`. -/
theorem rows_apply (xt : Vec Ideal S1x512x256 .f32) (ys : Vec Ideal S1x2048x256 .f32) (held : Vec Ideal S1x1x2048 .f32) (m : Fin 2048) :
    k0_pay3 (F := Ideal) xt ys held (ix3 0 0 m)
      = held (ix3 0 0 m) + ∑ r : Fin 512, ∑ d : Fin 256, xt (ix3 0 r d) * ys (ix3 0 m d) := by
  unfold k0_pay3
  refine (shapeCast_addUnit_apply ![1, 2048] _ _ (ix3 0 0 m)).trans ?_
  refine (addf_apply _ _ _).trans (congrArg₂ (· + ·) ?_ ?_)
  · refine (shapeCast_dropUnit_apply ![1, 2048] held _ _).trans (congrArg held ?_)
    funext a
    match a with
    | ⟨0, _⟩ => rfl
    | ⟨1, _⟩ => rfl
    | ⟨2, _⟩ => rfl
  · refine (shapeCast_addUnit_apply ![2048] _ _ _).trans ?_
    refine (Ideal.multiReduction_add_single _ _ _ _ _ _).trans ?_
    refine Finset.sum_congr rfl fun r _ => ?_
    refine Eq.trans (congrArg (k0_pay2 (F := Ideal) xt ys) ?_) (score_apply xt ys r m)
    funext a
    match a with
    | ⟨0, _⟩ => rfl
    | ⟨1, _⟩ => rfl

/-- The column-marginal block of the point: the scores' sum along row `r`. -/
theorem cols_apply (xt : Vec Ideal S1x512x256 .f32) (ys : Vec Ideal S1x2048x256 .f32) (r : Fin 512) :
    k0_pay4 (F := Ideal) xt ys (ix3 0 0 r) = ∑ m : Fin 2048, ∑ d : Fin 256, xt (ix3 0 r d) * ys (ix3 0 m d) := by
  unfold k0_pay4
  refine (shapeCast_addUnit_apply ![1, 512] _ _ (ix3 0 0 r)).trans ?_
  refine (shapeCast_addUnit_apply ![512] _ _ _).trans ?_
  refine (Ideal.multiReduction_add_single _ _ _ _ _ _).trans ?_
  refine Finset.sum_congr rfl fun m _ => ?_
  refine Eq.trans (congrArg (k0_pay2 (F := Ideal) xt ys) ?_) (score_apply xt ys r m)
  funext a
  match a with
  | ⟨0, _⟩ => rfl
  | ⟨1, _⟩ => rfl

end Cert.KernelIdeal.TileValue

end
-- ==== Proof.Blocks.lean ====
/-
  Which entries of the argument arrays a grid point is given.

  The 64 points run batch by batch, four tiles to a batch: point t works on batch t / 4 and on tile t % 4 of its rows.
  Its block of `x` is rows 512 (t % 4) … 512 (t % 4) + 511 of batch t / 4, all 256 features; its block of `y` is the whole
  2048-row slab of batch t / 4.  (The block indices are decided once over the 64 points; a block's coordinate in the
  array is always index × size + the coordinate inside the block.)
-/
import proofs.«145752_j70970039599490_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx Cert.KernelIdeal Cert.KernelIdeal.Gen

variable {F : FTy → Type} [FloatOps F]
variable (m : (ℓ : Loc nD τ sig) → Buf (Elt F) ℓ)

/-- The four windows' block indices at point t: batch t / 4 on the leading axis; the tile t % 4 on the row axis of `x`
    and on the entry axis of the column marginal; zero elsewhere. -/
theorem block_index : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = t.val % 4) :=
  (by decide +kernel : ∀ t : Fin grid0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = t.val % 4))

theorem point_lt (t : Fin cfg0.N) : t.val < 64 := lt_of_lt_of_eq t.isLt (show cfg0.N = 64 from N_0)

/-- The batch a point works on, -/
def batch (t : Fin cfg0.N) : Fin 16 := ⟨t.val / 4, by have := point_lt t; omega⟩
/-- and the row of `x` that row `r` of its tile is. -/
def tileRow (t : Fin cfg0.N) (r : Fin 512) : Fin 2048 := ⟨512 * (t.val % 4) + r.val, by have := r.isLt; omega⟩

/-- The point's tile of `x` and slab of `y`, at their literal shapes. -/
abbrev xtile (c : Dev nD) (t : Fin cfg0.N) : Vec F S1x512x256 .f32 := iblk m c 0 t
abbrev yslab (c : Dev nD) (t : Fin cfg0.N) : Vec F S1x2048x256 .f32 := iblk m c 1 t

/-- Row `r`, feature `d` of the tile is `x` at (t / 4, 512 (t % 4) + r, d). -/
theorem xtile_apply (c : Dev nD) (t : Fin cfg0.N) (r : Fin 512) (d : Fin 256) :
    xtile m c t (ix3 0 r d) = m ((c : Thread nD τ).loc main_arg0) (ix3 (batch t) (tileRow t r) d) := by
  obtain ⟨⟨h0, h1, h2⟩, -⟩ := block_index t
  show iblk m c 0 t (ix3 0 r d) = _
  unfold iblk
  rw [View.read_apply]
  show m ((c : Thread nD τ).loc main_arg0) _ = _
  congr 1
  funext a
  apply Fin.ext
  match a with
  | ⟨0, _⟩ => show win0_0.index t (0 : Fin 3) * 1 + 1 * 0 = t.val / 4; rw [h0]; omega
  | ⟨1, _⟩ => show win0_0.index t (1 : Fin 3) * 512 + 1 * r.val = 512 * (t.val % 4) + r.val; rw [h1]; omega
  | ⟨2, _⟩ => show win0_0.index t (2 : Fin 3) * 256 + 1 * d.val = d.val; rw [h2]; omega

/-- Row `k`, feature `d` of the slab is `y` at (t / 4, k, d). -/
theorem yslab_apply (c : Dev nD) (t : Fin cfg0.N) (k : Fin 2048) (d : Fin 256) :
    yslab m c t (ix3 0 k d) = m ((c : Thread nD τ).loc main_arg1) (ix3 (batch t) k d) := by
  obtain ⟨-, ⟨h0, h1, h2⟩, -⟩ := block_index t
  show iblk m c 1 t (ix3 0 k d) = _
  unfold iblk
  rw [View.read_apply]
  show m ((c : Thread nD τ).loc main_arg1) _ = _
  congr 1
  funext a
  apply Fin.ext
  match a with
  | ⟨0, _⟩ => show win0_1.index t (0 : Fin 3) * 1 + 1 * 0 = t.val / 4; rw [h0]; omega
  | ⟨1, _⟩ => show win0_1.index t (1 : Fin 3) * 2048 + 1 * k.val = k.val; rw [h1]; omega
  | ⟨2, _⟩ => show win0_1.index t (2 : Fin 3) * 256 + 1 * d.val = d.val; rw [h2]; omega

end Cert.KernelIdeal.Blocks

end
-- ==== Proof.Marginals.lean ====
/-
  The two marginals of a batched score matrix, as functions of the argument arrays over the extended reals.

  For x, y : [16, 2048, 256] the score is  S[b, n, m] = ∑ d, x[b, n, d] · y[b, m, d].  Its marginal over the rows,
  R[b, m] = ∑ n, S[b, n, m], and its marginal over the columns, C[b, n] = ∑ m, S[b, n, m], are what both programs
  lay side by side in their [16, 4096] result.  A sum over the 2048 rows is the sum over four tiles of 512 rows of the
  tiles' sums: only the grouping of one finite sum changes, so the law holds in any commutative additive monoid — on the
  extended reals without any finiteness of the entries.
-/
import Idealize.ShloMosaic.PureOps.Ideal
import Idealize.ShloMosaic.Lib.ValueIdx
import Mathlib.Algebra.BigOperators.Fin

noncomputable section

namespace Cert.Marginals

open Idealize.ShloMosaic Idealize.ShloMosaic.ValueIdx

/-- The score of row `n` of `x` against row `m` of `y` in batch `b`: their inner product over the 256 features. -/
def score (x y : (⟨3, ![16, 2048, 256]⟩ : Shape).Idx → EReal) (b : Fin 16) (n m : Fin 2048) : EReal :=
  ∑ d : Fin 256, x (ix3 b n d) * y (ix3 b m d)

/-- The marginal over the rows `n`: entry (b, m) is the sum of column `m` of batch `b`'s score matrix. -/
def overRows (x y : (⟨3, ![16, 2048, 256]⟩ : Shape).Idx → EReal) : (⟨2, ![16, 2048]⟩ : Shape).Idx → EReal :=
  fun i => ∑ n : Fin 2048, score x y (i 0) n (i 1)

/-- The marginal over the columns `m`: entry (b, n) is the sum of row `n` of batch `b`'s score matrix. -/
def overCols (x y : (⟨3, ![16, 2048, 256]⟩ : Shape).Idx → EReal) : (⟨2, ![16, 2048]⟩ : Shape).Idx → EReal :=
  fun i => ∑ m : Fin 2048, score x y (i 0) (i 1) m

/-- A sum over 2048 rows, grouped as four tiles of 512 consecutive rows. -/
theorem sum_rows_by_tiles {M : Type*} [AddCommMonoid M] (f : Fin 2048 → M) :
    ∑ n, f n = ∑ j : Fin 4, ∑ r : Fin 512, f ⟨512 * j.val + r.val, by have := j.isLt; have := r.isLt; omega⟩ := by
  have e := Equiv.sum_comp (finProdFinEquiv (m := 4) (n := 512)) (fun k : Fin (4 * 512) => f ⟨k.val, k.isLt⟩)
  rw [Fintype.sum_prod_type] at e
  refine Eq.trans ?_ (Eq.trans e.symm ?_)
  · rfl
  · refine Finset.sum_congr rfl fun j _ => Finset.sum_congr rfl fun r _ => congrArg f (Fin.ext ?_)
    show (finProdFinEquiv (j, r)).val = 512 * j.val + r.val
    show r.val + 512 * j.val = 512 * j.val + r.val
    omega

/-- The part of the row marginal at (b, m) that tile `j` of the rows contributes: the sum of column `m` over rows
    512 j … 512 j + 511.  Stated for every natural `j` (zero past the fourth tile) so that running sums over
    `Finset.range` can speak of it. -/
def tilePart (x y : (⟨3, ![16, 2048, 256]⟩ : Shape).Idx → EReal) (b : Fin 16) (m : Fin 2048) (j : ℕ) : EReal :=
  if h : j < 4 then ∑ r : Fin 512, score x y b ⟨512 * j + r.val, by have := r.isLt; omega⟩ m else 0

/-- The four tiles' parts add up to the row marginal. -/
theorem sum_tileParts (x y : (⟨3, ![16, 2048, 256]⟩ : Shape).Idx → EReal) (b : Fin 16) (m : Fin 2048) :
    ∑ j ∈ Finset.range 4, tilePart x y b m j = overRows x y (ix2 b m) := by
  rw [Finset.sum_range]
  unfold overRows
  rw [sum_rows_by_tiles]
  refine Finset.sum_congr rfl fun j _ => ?_
  unfold tilePart
  rw [dif_pos j.isLt]

end Cert.Marginals

end
-- ==== Proof.Running.lean ====
/-
  What the two output blocks hold after each grid point, over the extended reals.

  The column-marginal block is written afresh at every point: after point t its entry r is the sum over all 2048 columns
  of the scores of row 512 (t % 4) + r of batch t / 4 — the column marginal's entry there.
  The row-marginal block is carried through the four points of a batch: zeroed and then updated at the first, updated at
  the others.  After the point working on tile i of batch b its entry m is the sum of the parts that tiles 0 … i
  contribute to the row marginal at (b, m) — by induction on the point; after the batch's last point all four parts are
  in, and that is the row marginal.
-/
import proofs.«145752_j70970039599490_1_alg».proof.Proof.Pieces
import proofs.«145752_j70970039599490_1_alg».proof.Proof.TileValue
import proofs.«145752_j70970039599490_1_alg».proof.Proof.Blocks
import proofs.«145752_j70970039599490_1_alg».proof.Proof.Marginals

noncomputable section

namespace Cert.KernelIdeal.Running

open Idealize.ShloMosaic Idealize.ShloMosaic.TcCoe Idealize.SL.Sem Idealize.ShloMosaic.ValueIdx
open Cert.KernelIdeal Cert.KernelIdeal.Gen Cert.KernelIdeal.Blocks Cert.Marginals

variable (m : (ℓ : Loc nD τ sig) → Buf (Elt Ideal) ℓ)

/-- The two argument arrays on core `c`, as the marginals take them. -/
abbrev xs (c : Dev nD) : (⟨3, ![16, 2048, 256]⟩ : Shape).Idx → EReal := m ((c : Thread nD τ).loc main_arg0)
abbrev ys (c : Dev nD) : (⟨3, ![16, 2048, 256]⟩ : Shape).Idx → EReal := m ((c : Thread nD τ).loc main_arg1)

/-- Column `k` of the point's scores, summed down the tile's rows, is the part its tile contributes to the row marginal. -/
theorem column_sum (c : Dev nD) (t : Fin cfg0.N) (k : Fin 2048) :
    ∑ r : Fin 512, ∑ d : Fin 256, xtile m c t (ix3 0 r d) * yslab m c t (ix3 0 k d)
      = tilePart (xs m c) (ys m c) (batch t) k (t.val % 4) := by
  unfold tilePart
  rw [dif_pos (Nat.mod_lt _ (by decide))]
  unfold score
  refine Finset.sum_congr rfl fun r _ => Finset.sum_congr rfl fun d _ => ?_
  exact congrArg₂ (· * ·) (xtile_apply m c t r d) (yslab_apply m c t k d)

/-- Row `r` of the point's scores, summed along all columns, is the column marginal at that row of `x`. -/
theorem row_sum (c : Dev nD) (t : Fin cfg0.N) (r : Fin 512) :
    ∑ k : Fin 2048, ∑ d : Fin 256, xtile m c t (ix3 0 r d) * yslab m c t (ix3 0 k d)
      = overCols (xs m c) (ys m c) (ix2 (batch t) (tileRow t r)) := by
  unfold overCols score
  refine Finset.sum_congr rfl fun k _ => Finset.sum_congr rfl fun d _ => ?_
  exact congrArg₂ (· * ·) (xtile_apply m c t r d) (yslab_apply m c t k d)

/-- The column-marginal block after any point. -/
theorem cols_at (c : Dev nD) (t : Fin cfg0.N) (r : Fin 512) :
    (outsAt0 m c t.val t.isLt).2 (ix3 0 0 r) = overCols (xs m c) (ys m c) (ix2 (batch t) (tileRow t r)) := by
  by_cases h0 : t.val % 4 = 0
  · rw [outsAt0_A m c t h0]
    dsimp only
    refine (congrFun (Pieces.cols_first (F := Ideal) c (grid0.coords t) (ms0_0 t) (hs0_0 t) (ms0_1 t) (hs0_1 t) (ms0_2 t) (hs0_2 t) (ms0_3 t) (hs0_3 t) ((hcond0_0 t).mpr h0) (xtile m c t) (yslab m c t)) (ix3 0 0 r)).trans ?_
    exact (TileValue.cols_apply (xtile m c t) (yslab m c t) r).trans (row_sum m c t r)
  · rw [outsAt0_B m c t h0]
    dsimp only
    refine (congrFun (Pieces.cols_later (F := Ideal) c (grid0.coords t) (ms0_0 t) (hs0_0 t) (ms0_1 t) (hs0_1 t) (ms0_2 t) (hs0_2 t) (ms0_3 t) (hs0_3 t) (fun h => h0 ((hcond0_0 t).mp h)) (xtile m c t) (yslab m c t) (outsAt0 m c (t.val - 1) (Nat.lt_of_le_of_lt (Nat.sub_le _ _) t.isLt)).1) (ix3 0 0 r)).trans ?_
    exact (TileValue.cols_apply (xtile m c t) (yslab m c t) r).trans (row_sum m c t r)

/-- The row-marginal block after the first point of a batch: the first tile's part alone. -/
theorem rows_at_first (c : Dev nD) (t : Fin cfg0.N) (h0 : t.val % 4 = 0) (k : Fin 2048) :
    (outsAt0 m c t.val t.isLt).1 (ix3 0 0 k) = tilePart (xs m c) (ys m c) (batch t) k 0 := by
  rw [outsAt0_A m c t h0]
  dsimp only
  refine (congrFun (Pieces.rows_first (F := Ideal) c (grid0.coords t) (ms0_0 t) (hs0_0 t) (ms0_1 t) (hs0_1 t) (ms0_2 t) (hs0_2 t) (ms0_3 t) (hs0_3 t) ((hcond0_0 t).mpr h0) (xtile m c t) (yslab m c t)) (ix3 0 0 k)).trans ?_
  refine (TileValue.rows_apply (xtile m c t) (yslab m c t) (k0_pay1 (F := Ideal)) k).trans ?_
  rw [TileValue.reset_apply, zero_add]
  exact (column_sum m c t k).trans (by rw [h0])

/-- After a later point of a batch: what the point before left, plus this tile's part. -/
theorem rows_at_later (c : Dev nD) (t : Fin cfg0.N) (h0 : ¬t.val % 4 = 0) (k : Fin 2048) :
    (outsAt0 m c t.val t.isLt).1 (ix3 0 0 k)
      = (outsAt0 m c (t.val - 1) (Nat.lt_of_le_of_lt (Nat.sub_le _ _) t.isLt)).1 (ix3 0 0 k) + tilePart (xs m c) (ys m c) (batch t) k (t.val % 4) := by
  rw [outsAt0_B m c t h0]
  dsimp only
  refine (congrFun (Pieces.rows_later (F := Ideal) c (grid0.coords t) (ms0_0 t) (hs0_0 t) (ms0_1 t) (hs0_1 t) (ms0_2 t) (hs0_2 t) (ms0_3 t) (hs0_3 t) (fun h => h0 ((hcond0_0 t).mp h)) (xtile m c t) (yslab m c t) (outsAt0 m c (t.val - 1) (Nat.lt_of_le_of_lt (Nat.sub_le _ _) t.isLt)).1) (ix3 0 0 k)).trans ?_
  refine (TileValue.rows_apply (xtile m c t) (yslab m c t) (outsAt0 m c (t.val - 1) (Nat.lt_of_le_of_lt (Nat.sub_le _ _) t.isLt)).1 k).trans ?_
  exact congrArg (_ + ·) (column_sum m c t k)

/-- The running sum: after point n the row-marginal block holds the parts of tiles 0 … n % 4 of batch n / 4. -/
theorem rows_running (c : Dev nD) : ∀ (n : ℕ) (h : n < cfg0.N) (k : Fin 2048),
    (outsAt0 m c n h).1 (ix3 0 0 k) = ∑ j ∈ Finset.range (n % 4 + 1), tilePart (xs m c) (ys m c) (batch ⟨n, h⟩) k j := by
  intro n
  induction n with
  | zero =>
    intro h k
    rw [show (0 % 4 + 1) = 1 from rfl, Finset.sum_range_one]
    exact rows_at_first m c ⟨0, h⟩ rfl k
  | succ n ih =>
    intro h k
    have hN : n + 1 < 64 := lt_of_lt_of_eq h (show cfg0.N = 64 from N_0)
    by_cases h0 : (n + 1) % 4 = 0
    · rw [show (n + 1) % 4 + 1 = 1 from by omega, Finset.sum_range_one]
      exact rows_at_first m c ⟨n + 1, h⟩ h0 k
    · have e1 : (n + 1) % 4 + 1 = (n % 4 + 1) + 1 := by omega
      have e2 : batch ⟨n + 1, h⟩ = batch ⟨n, Nat.lt_of_succ_lt h⟩ := Fin.ext (by show (n + 1) / 4 = n / 4; omega)
      have e3 : (n + 1) % 4 = n % 4 + 1 := by omega
      rw [e1, Finset.sum_range_succ, e2, ← ih (Nat.lt_of_succ_lt h) k]
      refine (rows_at_later m c ⟨n + 1, h⟩ h0 k).trans ?_
      show (outsAt0 m c n _).1 (ix3 0 0 k) + tilePart (xs m c) (ys m c) (batch ⟨n + 1, h⟩) k ((n + 1) % 4) = _
      rw [e2, e3]

/-- After the last point of a batch the block holds the row marginal. -/
theorem rows_done (c : Dev nD) (t : Fin cfg0.N) (h3 : t.val % 4 = 3) (k : Fin 2048) :
    (outsAt0 m c t.val t.isLt).1 (ix3 0 0 k) = overRows (xs m c) (ys m c) (ix2 (batch t) k) := by
  rw [rows_running m c t.val t.isLt k, h3]
  exact sum_tileParts _ _ _ _

end Cert.KernelIdeal.Running

end
-- ==== Proof.Arrays.lean ====
/-
  The two result arrays of the kernel region after the run, over the extended reals.

  The row-marginal array [16, 1, 2048] is written back once per batch, after the batch's fourth point, when its block holds
  the whole row marginal of that batch; the sixteen blocks tile the array.  The column-marginal array [16, 1, 2048] is
  written back at every point, 512 entries at a time: point t writes entries 512 (t % 4) … 512 (t % 4) + 511 of batch
  t / 4, and the 64 blocks tile the array.  So the first array ends as the row marginal and the second as the column
  marginal, each read with its middle unit axis dropped.
-/
import proofs.«145752_j70970039599490_1_alg».proof.Proof.Running

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Running Cert.Marginals

variable (m : (ℓ : Loc nD τ sig) → Buf (Elt Ideal) ℓ)

/-- The row marginal laid out as the region's first result array, -/
def rowsArray (c : Dev nD) : Buf (Elt Ideal) ((c : Thread nD τ).loc main_v0_0) :=
  fun i => overRows (xs m c) (ys m c) (ix2 (i 0) (i 2))
/-- and the column marginal as its second. -/
def colsArray (c : Dev nD) : Buf (Elt Ideal) ((c : Thread nD τ).loc main_v0_1) :=
  fun i => overCols (xs m c) (ys m c) (ix2 (i 0) (i 2))

/-- An index of a [1, 1, n] block is (0, 0, its last coordinate). -/
theorem unit_block_index {n : ℕ} (y : (⟨3, ![1, 1, n]⟩ : Shape).Idx) : y = ix3 0 0 (y 2) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- The row-marginal block after a batch's last point, at any index of the block. -/
theorem rows_block (c : Dev nD) (t : Fin cfg0.N) (h3 : t.val % 4 = 3) (y : S1x1x2048.Idx) :
    (outsAt0 m c t.val t.isLt).1 y = overRows (xs m c) (ys m c) (ix2 (batch t) (y 2)) :=
  (congrArg (outsAt0 m c t.val t.isLt).1 (unit_block_index (n := 2048) y)).trans (rows_done m c t h3 (y 2))

/-- The column-marginal block after any point, at any index of the block. -/
theorem cols_block (c : Dev nD) (t : Fin cfg0.N) (y : S1x1x512.Idx) :
    (outsAt0 m c t.val t.isLt).2 y = overCols (xs m c) (ys m c) (ix2 (batch t) (tileRow t (y 2))) :=
  (congrArg (outsAt0 m c t.val t.isLt).2 (unit_block_index (n := 512) y)).trans (cols_at m c t (y 2))

/-- What a batch's last point writes back is its block of the row marginal's array. -/
theorem rows_flushed (c : Dev nD) (t : Fin cfg0.N) (hf : (cfg0.win 2).flush t = true) :
    (dats m 0 c).flushed 2 t = ((cfg0.win 2).blk t).view.read (Elt Ideal) (rowsArray m c) := by
  have h3 : t.val % 4 = 3 := (flush0_2 t).mp hf
  obtain ⟨-, -, ⟨h0, h1, h2⟩, -⟩ := block_index t
  show (cfg0.win 2).cut (grid0.coords t) ((dats m 0 c).after 2 t) = _
  rw [after0_2]
  funext y
  rw [View.read_apply]
  show (outsAt0 m c t.val t.isLt).1 y = rowsArray m c (((cfg0.win 2).blk t).view.emb y)
  rw [rows_block m c t h3 y]
  unfold rowsArray
  congr 1
  funext a
  apply Fin.ext
  match a with
  | ⟨0, _⟩ => show t.val / 4 = win0_2.index t (0 : Fin 3) * 1 + 1 * (y 0).val
              have h : (y 0).val < 1 := (y 0).isLt
              rw [h0]; omega
  | ⟨1, _⟩ => show (y 2).val = win0_2.index t (2 : Fin 3) * 2048 + 1 * (y 2).val
              rw [h2]; omega

/-- Every point writes back its block of the column marginal's array. -/
theorem cols_flushed (c : Dev nD) (t : Fin cfg0.N) (hf : (cfg0.win 3).flush t = true) :
    (dats m 0 c).flushed 3 t = ((cfg0.win 3).blk t).view.read (Elt Ideal) (colsArray m c) := by
  obtain ⟨-, -, -, ⟨h0, h1, h2⟩⟩ := block_index t
  show (cfg0.win 3).cut (grid0.coords t) ((dats m 0 c).after 3 t) = _
  rw [after0_3]
  funext y
  rw [View.read_apply]
  show (outsAt0 m c t.val t.isLt).2 y = colsArray m c (((cfg0.win 3).blk t).view.emb y)
  rw [cols_block m c t y]
  unfold colsArray
  congr 1
  funext a
  apply Fin.ext
  match a with
  | ⟨0, _⟩ => show t.val / 4 = win0_3.index t (0 : Fin 3) * 1 + 1 * (y 0).val
              have h : (y 0).val < 1 := (y 0).isLt
              rw [h0]; omega
  | ⟨1, _⟩ => show 512 * (t.val % 4) + (y 2).val = win0_3.index t (2 : Fin 3) * 512 + 1 * (y 2).val
              rw [h2]; omega

/-- The first result array after the run is the row marginal: the blocks written after points 3, 7, …, 63 tile it. -/
theorem rows_final (c : Dev nD) : (dats m 0 c).arrAt 2 cfg0.N = rowsArray m c :=
  (dats m 0 c).arrAt_eq_of_cover 2 (rowsArray m c) (rows_flushed m c) fun i => by
    have hb : (i 0).val < 16 := (i 0).isLt
    have h1 : (i 1).val < 1 := (i 1).isLt
    have h2 : (i 2).val < 2048 := (i 2).isLt
    obtain ⟨t, ht⟩ : ∃ t : Fin cfg0.N, t.val = 4 * (i 0).val + 3 :=
      ⟨⟨4 * (i 0).val + 3, by rw [show cfg0.N = 64 from N_0]; omega⟩, rfl⟩
    obtain ⟨-, -, ⟨e0, e1, e2⟩, -⟩ := block_index t
    refine ⟨t, (flush0_2 t).mpr (by omega), ?_⟩
    show i ∈ ((View.whole main_v0_0).slice (win0_2.rect t)).set
    rw [View.set_slice_whole, Rect.mem_set_unit]
    intro a
    match a with
    | ⟨0, _⟩ => show win0_2.index t (0 : Fin 3) * 1 ≤ (i 0).val ∧ (i 0).val < win0_2.index t (0 : Fin 3) * 1 + 1
                rw [e0]; omega
    | ⟨1, _⟩ => show win0_2.index t (1 : Fin 3) * 1 ≤ (i 1).val ∧ (i 1).val < win0_2.index t (1 : Fin 3) * 1 + 1
                rw [e1]; omega
    | ⟨2, _⟩ => show win0_2.index t (2 : Fin 3) * 2048 ≤ (i 2).val ∧ (i 2).val < win0_2.index t (2 : Fin 3) * 2048 + 2048
                rw [e2]; omega

/-- The second result array after the run is the column marginal: the 64 blocks of 512 entries tile it. -/
theorem cols_final (c : Dev nD) : (dats m 0 c).arrAt 3 cfg0.N = colsArray m c :=
  (dats m 0 c).arrAt_eq_of_cover 3 (colsArray m c) (cols_flushed m c) fun i => by
    have hb : (i 0).val < 16 := (i 0).isLt
    have h1 : (i 1).val < 1 := (i 1).isLt
    have h2 : (i 2).val < 2048 := (i 2).isLt
    obtain ⟨t, ht⟩ : ∃ t : Fin cfg0.N, t.val = 4 * (i 0).val + (i 2).val / 512 :=
      ⟨⟨4 * (i 0).val + (i 2).val / 512, by rw [show cfg0.N = 64 from N_0]; omega⟩, rfl⟩
    obtain ⟨-, -, -, ⟨e0, e1, e2⟩⟩ := block_index t
    refine ⟨t, flush0_3 t, ?_⟩
    show i ∈ ((View.whole main_v0_1).slice (win0_3.rect t)).set
    rw [View.set_slice_whole, Rect.mem_set_unit]
    intro a
    match a with
    | ⟨0, _⟩ => show win0_3.index t (0 : Fin 3) * 1 ≤ (i 0).val ∧ (i 0).val < win0_3.index t (0 : Fin 3) * 1 + 1
                rw [e0]; omega
    | ⟨1, _⟩ => show win0_3.index t (1 : Fin 3) * 1 ≤ (i 1).val ∧ (i 1).val < win0_3.index t (1 : Fin 3) * 1 + 1
                rw [e1]; omega
    | ⟨2, _⟩ => show win0_3.index t (2 : Fin 3) * 512 ≤ (i 2).val ∧ (i 2).val < win0_3.index t (2 : Fin 3) * 512 + 512
                rw [e2]; omega

end Cert.KernelIdeal.Arrays

end
-- ==== Proof.KernelRun.lean ====
/-
  The kernel program's run, read to the end: its [16, 4096] result is the row marginal beside the column marginal.

  After the region the program drops the middle unit axis of each of the region's two arrays and joins the two
  [16, 2048] halves along the second axis.  Entry (b, k) of a [16, 1, 2048] array and entry (b, k) of its [16, 2048]
  reshape sit at the same row-major position, so the two halves are the two marginals themselves.
-/
import proofs.«145752_j70970039599490_1_alg».proof.Proof.Arrays
import Idealize.ShloMosaic.Lib.StableHlo.Run

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Running Cert.KernelIdeal.Arrays Cert.Marginals

variable (m : (ℓ : Loc nD τ sig) → Buf (Elt Ideal) ℓ) (ρ : Dev nD → PrngReg)

/-- A [16, 2048] function laid out with a middle unit axis and reshaped back is itself. -/
theorem drop_middle (f : (⟨2, ![16, 2048]⟩ : Shape).Idx → EReal) (h : S16x1x2048.ShapeCasts S16x2048) :
    shapeCast S16x2048 (fun i : S16x1x2048.Idx => f (ix2 (i 0) (i 2))) h = f := by
  funext j
  refine (shapeCast_apply _ h j (ix3 (j 0) 0 (j 1)) ?_).trans (congrArg f (eq_ix2 j).symm)
  rw [Shape.rowMajor_val_three, Shape.rowMajor_val_two]
  show ((j 0).val * 1 + 0) * 2048 + (j 1).val = (j 0).val * 2048 + (j 1).val
  omega

/-- The region's first array, reshaped, is the row marginal; -/
theorem rows_reshaped (c : Dev nD) :
    shapeCast S16x2048 (rowsArray m c) shapeCasts_S16x1x2048_S16x2048 = overRows (xs m c) (ys m c) :=
  drop_middle (overRows (xs m c) (ys m c)) shapeCasts_S16x1x2048_S16x2048
/-- its second, the column marginal. -/
theorem cols_reshaped (c : Dev nD) :
    shapeCast S16x2048 (colsArray m c) shapeCasts_S16x1x2048_S16x2048 = overCols (xs m c) (ys m c) :=
  drop_middle (overCols (xs m c) (ys m c)) shapeCasts_S16x1x2048_S16x2048

/-- The two marginals side by side: what both programs end holding. -/
def sideBySide (x y : (⟨3, ![16, 2048, 256]⟩ : Shape).Idx → EReal) : S16x4096.Idx → EReal :=
  concatenate S16x4096 1 [⟨S16x2048, overRows x y⟩, ⟨S16x2048, overCols x y⟩] concatenates_S16x2048_S16x2048_S16x4096_d1

/-- The program's result after the lines that follow the region. -/
theorem tail_value (c : Dev nD) :
    Pipeline.afterTail₀ cfgs (dats m) 0 (V0 m) [hostOps1] c main_v3 = sideBySide (xs m c) (ys m c) := by
  have e2 : Pipeline.withArrays (cfgs 0).spec c (V0 m c) (fun w => (dats m 0 c).arrAt w (cfgs 0).N) (Proc.devRef .tc main_v0_0)
      = rowsArray m c := (Pipeline.withArrays_arr spec0 launch0.win.arr_inj c _ _ 2).trans (rows_final m c)
  have e3 : Pipeline.withArrays (cfgs 0).spec c (V0 m c) (fun w => (dats m 0 c).arrAt w (cfgs 0).N) (Proc.devRef .tc main_v0_1)
      = colsArray m c := (Pipeline.withArrays_arr spec0 launch0.win.arr_inj c _ _ 3).trans (cols_final m c)
  unfold Pipeline.afterTail₀
  show StableHlo.after hostOps1 _ (Proc.devRef .tc main_v3) = _
  after_results
  rw [e2, e3]
  show concatenate S16x4096 1 [⟨S16x2048, shapeCast S16x2048 (rowsArray m c) shapeCasts_S16x1x2048_S16x2048⟩,
      ⟨S16x2048, shapeCast S16x2048 (colsArray m c) shapeCasts_S16x1x2048_S16x2048⟩] concatenates_S16x2048_S16x2048_S16x4096_d1 = _
  unfold sideBySide
  exact congrArg₂ (fun a b => concatenate S16x4096 1 [⟨S16x2048, a⟩, ⟨S16x2048, b⟩] concatenates_S16x2048_S16x2048_S16x4096_d1)
    (rows_reshaped m c) (cols_reshaped m c)

/-- Every weakly fair execution of the kernel program ends with the result at the two marginals side by side and the
    arguments as they were. -/
theorem run : θ_run defs (onTc (τ := τ) (main (F := Ideal))) ⟨m, fun _ => 0, ρ⟩ fun r => ∀ c : Dev nD,
      r.2.mem ((c.tc : Thread nD τ).loc main_v3) = sideBySide (xs m c) (ys m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 rfl (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefSide.lean ====
/-
  The reference, read at an index: its two reductions of the batched inner products are the two marginals.

  The reference forms every inner product S[b, n, m] = ∑ d, x[b, n, d] · y[b, m, d] in one contraction, then sums it once
  over `n` and once over `m`, each sum started from the zero word.  Over the extended reals the zero word is 0, and what
  is left is, entry by entry, the marginal over the rows and the marginal over the columns.
-/
import proofs.«145752_j70970039599490_1_alg».proof.Proof.Gen.ReferenceIdeal.Read
import proofs.«145752_j70970039599490_1_alg».proof.Proof.Marginals

noncomputable section

namespace Cert.ReferenceIdeal.Marginal

open Idealize.ShloMosaic Idealize.ShloMosaic.ValueIdx Cert.ReferenceIdeal Cert.ReferenceIdeal.Read Cert.Marginals

/-- Summed over `n` from the zero word, the products' array is the marginal over the rows. -/
theorem sum_over_n (x y : (⟨S16x2048x256, .f32⟩ : BufTy).Contents (Elt Ideal)) :
    val_main_v1 (F := Ideal) x y = overRows x y := by
  funext i
  rw [val_main_v1_apply, val_main_cst_apply]
  show Ideal.ofBits .f32 0x00000000#32 + _ = _
  rw [Ideal.ofBits_zero_f32, zero_add]
  unfold overRows score
  refine Finset.sum_congr rfl fun n _ => ?_
  rw [val_main_v0_apply]
  refine Finset.sum_congr rfl fun d _ => ?_
  congr 2 <;> (funext a; match a with | ⟨0, _⟩ => rfl | ⟨1, _⟩ => rfl | ⟨2, _⟩ => rfl)

/-- Summed over `m` from the zero word, it is the marginal over the columns. -/
theorem sum_over_m (x y : (⟨S16x2048x256, .f32⟩ : BufTy).Contents (Elt Ideal)) :
    val_main_v2 (F := Ideal) x y = overCols x y := by
  funext i
  rw [val_main_v2_apply, val_main_cst_0_apply]
  show Ideal.ofBits .f32 0x00000000#32 + _ = _
  rw [Ideal.ofBits_zero_f32, zero_add]
  unfold overCols score
  refine Finset.sum_congr rfl fun m _ => ?_
  rw [val_main_v0_apply]
  refine Finset.sum_congr rfl fun d _ => ?_
  congr 2 <;> (funext a; match a with | ⟨0, _⟩ => rfl | ⟨1, _⟩ => rfl | ⟨2, _⟩ => rfl)

end Cert.ReferenceIdeal.Marginal

end
-- ==== Proof.lean ====
/-
  The certificate of a batched score matrix's two marginals.

  For x, y : [16, 2048, 256] both programs compute  S[b, n, m] = ∑ d, x[b, n, d] · y[b, m, d]  and return, side by side in
  one [16, 4096] array, its marginal over the rows  R[b, m] = ∑ n, S[b, n, m]  and its marginal over the columns
  C[b, n] = ∑ m, S[b, n, m].  The reference forms all of S and reduces it twice.  The kernel walks each batch in four
  tiles of 512 rows: a tile's scores are summed along each row into 512 fresh entries of C, and summed down each column
  into a block of R that is zeroed at the batch's first tile and carried through the other three.  Over the extended
  reals (where the narrowing of the factors before the contraction is the identity and the zero word is 0) the kernel's
  R is the reference's sum over 2048 rows grouped as four sums over 512: one finite sum in two groupings, equal in any
  commutative additive monoid, so no finiteness of the inputs is used.  The ideal pass rewrote nothing, so the kernel's
  idealization is its own text read over the extended reals.
-/
import proofs.«145752_j70970039599490_1_alg».proof.Defs
import proofs.«145752_j70970039599490_1_alg».proof.Proof.Gen.Kernel
import proofs.«145752_j70970039599490_1_alg».proof.Proof.Gen.Kernel.Frame
import proofs.«145752_j70970039599490_1_alg».proof.Proof.Gen.KernelIdeal
import proofs.«145752_j70970039599490_1_alg».proof.Proof.Gen.KernelIdeal.Frame
import proofs.«145752_j70970039599490_1_alg».proof.Proof.Gen.ReferenceIdeal
import proofs.«145752_j70970039599490_1_alg».proof.Proof.Gen.Pre_finite_inputs
import proofs.«145752_j70970039599490_1_alg».proof.Proof.KernelRun
import proofs.«145752_j70970039599490_1_alg».proof.Proof.RefSide
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations; its run leaves its arguments alone. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on x and y, both programs end with the row marginal beside the column marginal. -/
theorem algebraic : Cert.algebraic_KernelIdeal_ReferenceIdeal := by
  intro m ρ m' ρ' _ hagree
  refine ⟨fun c => Cert.KernelIdeal.Result.sideBySide (Cert.KernelIdeal.Running.xs m c) (Cert.KernelIdeal.Running.ys m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v3_eq]
  unfold Cert.ReferenceIdeal.Read.val_main_v3
  rw [Cert.ReferenceIdeal.Marginal.sum_over_n, Cert.ReferenceIdeal.Marginal.sum_over_m]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
